-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S4096x512 : Shape := ⟨2, ![4096, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S16384x512 .f32) (main_arg1 : FVec F S4096x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S16384x512 : Shape := ⟨2, ![16384, 512]⟩
abbrev S4096x512 : Shape := ⟨2, ![4096, 512]⟩
abbrev S16384x4096 : Shape := ⟨2, ![16384, 4096]⟩
abbrev S1024x512 : Shape := ⟨2, ![1024, 512]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S4096x512, .f32⟩
  | .hbm, ⟨2, _⟩ => ⟨S16384x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1024, .f32⟩
  | .local _ .vmem, ⟨5, _⟩ => ⟨S1024x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  shapeCasts_S1024_S1x1024 : S1024.ShapeCasts S1x1024
  bitsLt_bf16_f32 : FTy.bits .bf16 < FTy.bits .f32
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x512.size a
  hwx0_1 : ∀ i : grid0.Coords, EltTy.bits .f32 = 32 ∨ (Rect.block (s := S4096x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x4096.size a
  hwx0_2 : ∀ i : grid0.Coords, EltTy.bits .f32 = 32 ∨ (Rect.block (s := S16384x4096) S1024x1024.size (cc0_transform_2 i) (hinb0_2 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x512 : Shape := ⟨2, ![16384, 512]⟩
abbrev S4096x512 : Shape := ⟨2, ![4096, 512]⟩
abbrev S_ : Shape := ⟨0, ![]⟩
abbrev S16384 : Shape := ⟨1, ![16384]⟩
abbrev S16384x1 : Shape := ⟨2, ![16384, 1]⟩
abbrev S4096 : Shape := ⟨1, ![4096]⟩
abbrev S16384x4096 : Shape := ⟨2, ![16384, 4096]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S4096x512, .f32⟩
  | .hbm, ⟨2, _⟩ => ⟨S16384x512, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S4096x512, .f32⟩
  | .hbm, ⟨7, _⟩ => ⟨S_, .f32⟩
  | .hbm, ⟨8, _⟩ => ⟨S4096, .f32⟩
  | .hbm, ⟨9, _⟩ => ⟨S16384x4096, .f32⟩
  | .hbm, ⟨10, _⟩ => ⟨S1x4096, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S4096x512_S4096_d1 : S4096x512.ReducesTo [1] S4096
  bcast_S4096_S1x4096_1 : S4096.BroadcastsInDim S1x4096 (![1] : Fin 1 → Fin S1x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  dot_S16384x512_S4096x512_S16384x4096_1_1_0_0_n_n_wf : DotDims.WF S16384x512 S4096x512 S16384x4096 [1] [1] [0] [0] [] []

variable [Facts₀]

def dot_S16384x512_S4096x512_S16384x4096_1_1_0_0_n_n : DotDims S16384x512 S4096x512 S16384x4096 where
  lhsContracting := [1]
  rhsContracting := [1]
  lhsNonContracting := [0]
  rhsNonContracting := [0]
  lhsBatch := []
  rhsBatch := []
  wf := dot_S16384x512_S4096x512_S16384x4096_1_1_0_0_n_n_wf

class Facts : Prop extends Facts₀ where

variable [Facts]
-- ==== Proof.SqDist.lean ====
/-
  The function both programs compute, written once over the extended reals.

  For a matrix `x` with rows `x_n` and a matrix `w` with rows `w_o` of the same length, the squared Euclidean
  distance ‖x_n − w_o‖² is expanded as ‖x_n‖² + ‖w_o‖² − 2·⟨x_n, w_o⟩: two sums of squares along a row and one inner
  product of two rows. `sqDist x w n o` is that expression, with the factor `2` kept as the float word both programs
  print, so that it is never evaluated. The definition is over any numbers of rows and any row length, because the
  kernel evaluates it on a pair of row blocks and the reference on the whole matrices: the same expression at two sizes.

  Also here: two layout facts in the style of the library's, for the column shapes a row statistic passes through
  (a vector made a column, and a column repeated along the rows of a matrix).
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.SqDist

open Idealize.ShloMosaic Idealize.ShloMosaic.ValueIdx

/-- ‖x_n‖² + ‖w_o‖² − 2·⟨x_n, w_o⟩ for row `n` of `x` and row `o` of `w`, on the extended reals. -/
def sqDist {N O D : ℕ} (x : (⟨2, ![N, D]⟩ : Shape).Idx → EReal) (w : (⟨2, ![O, D]⟩ : Shape).Idx → EReal)
    (n : Fin N) (o : Fin O) : EReal :=
  ((∑ k : Fin D, x (ix2 n k) * x (ix2 n k)) + ∑ k : Fin D, w (ix2 o k) * w (ix2 o k))
    - Ideal.ofBits .f32 0x40000000#32 * ∑ k : Fin D, x (ix2 n k) * w (ix2 o k)

/-- The matrix of all those values: entry (n, o) is the expanded squared distance of row `n` of `x` and row `o` of `w`. -/
def sqDistArr {N O D : ℕ} (x : (⟨2, ![N, D]⟩ : Shape).Idx → EReal) (w : (⟨2, ![O, D]⟩ : Shape).Idx → EReal) :
    (⟨2, ![N, O]⟩ : Shape).Idx → EReal :=
  fun i => sqDist x w (i 0) (i 1)

theorem sqDistArr_ix2 {N O D : ℕ} (x : (⟨2, ![N, D]⟩ : Shape).Idx → EReal) (w : (⟨2, ![O, D]⟩ : Shape).Idx → EReal)
    (n : Fin N) (o : Fin O) : sqDistArr x w (ix2 n o) = sqDist x w n o := rfl

/-! ## Two column layouts read at an index -/

section Layout
variable {α : Type}

/-- A vector of length `a` cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

end Cert.SqDist

end
-- ==== Proof.KernelPayload.lean ====
/-
  What the kernel body stores, read at one entry of its output block.

  The body loads a block `a` of 1024 rows of `x` and a block `b` of 1024 rows of `w` (rows of length 512) and stores
  the 1024 × 1024 block whose entry (p, q) is ‖a_p‖² + ‖b_q‖² − 2·⟨a_p, b_q⟩: the row sums of squares are lane sums,
  laid out as a column and as a row and repeated across the block; the inner products are one matrix product of the
  two blocks contracted along their rows' common axis, into a zero accumulator, whose narrowing of the operands is the
  identity on the extended reals. So the stored block is `sqDist a b` entry by entry.
-/
import proofs.«160219_j16655883173981_1_alg».proof.Proof.Gen.KernelIdeal.Skeleton
import proofs.«160219_j16655883173981_1_alg».proof.Proof.SqDist

noncomputable section

open scoped BigOperators

namespace Cert.KernelIdeal.Payload

open Cert.KernelIdeal Cert.KernelIdeal.Gen Idealize.ShloMosaic Idealize.ShloMosaic.ValueIdx Cert.SqDist

/-- A lane sum of the squares of a block's entries, at row `p`: the sum over the row. -/
theorem rowSq (v : FVec Ideal S1024x512 .f32) (p : Fin 1024) :
    multiReduction .add [1] S1024 (mulf v v) 0x00000000#32 reduces_S1024x512_S1024 (.inl rfl) rfl (ix1 p)
      = ∑ k : Fin 512, v (ix2 p k) * v (ix2 p k) := by
  refine (Ideal.multiReduction_add_single (mulf v v) 0x00000000#32 reduces_S1024x512_S1024 (.inl rfl) rfl (ix1 p)).trans ?_
  refine Finset.sum_congr rfl fun k _ => ?_
  have e : reduces_S1024x512_S1024.lift (ix1 p) k = ix2 p k :=
    funext fun a => Fin.ext (by match a with | ⟨0, _⟩ => rfl | ⟨1, _⟩ => rfl)
  show v (reduces_S1024x512_S1024.lift (ix1 p) k) * v (reduces_S1024x512_S1024.lift (ix1 p) k) = _
  rw [e]
  rfl

/-! The matrix product's operand indices, axis by axis: output entry (p, q) and contraction index k read the left
    operand at (p, k) and the right operand at (q, k). -/

theorem lhs_axis0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_axis1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
theorem rhs_axis0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_axis1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The matrix product of the two blocks into a zero accumulator, at (p, q): the inner product of row `p` of the
    left block and row `q` of the right block (the operands' narrowing is the identity on the extended reals). -/
theorem gram (a b : FVec Ideal S1024x512 .f32) (p q : Fin 1024) :
    matmul dot_S1024x512_S1024x512_S1024x1024_1_1_0_0_n_n none (truncf .bf16 a bitsLt_bf16_f32) (truncf .bf16 b bitsLt_bf16_f32)
        (constant S1024x1024 .f32 0x00000000#32) (ix2 p q)
      = ∑ k : Fin 512, a (ix2 p k) * b (ix2 q k) := by
  simp only [matmul]
  rw [Ideal.matmul_constant_zero_apply, ← Equiv.sum_comp (ValueIdx.contrEquiv1 dot_S1024x512_S1024x512_S1024x1024_1_1_0_0_n_n 512 rfl rfl).symm]
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx (ix2 p q) ((ValueIdx.contrEquiv1 dot_S1024x512_S1024x512_S1024x1024_1_1_0_0_n_n 512 rfl rfl).symm k) = ix2 p k := funext fun ax => Fin.ext (by
    match ax with
    | ⟨0, _⟩ => exact lhs_axis0 _ _
    | ⟨1, _⟩ => exact (lhs_axis1 _ _).trans hk)
  have er : dot_S1024x512_S1024x512_S1024x1024_1_1_0_0_n_n.rhsIdx (ix2 p q) ((ValueIdx.contrEquiv1 dot_S1024x512_S1024x512_S1024x1024_1_1_0_0_n_n 512 rfl rfl).symm k) = ix2 q k := funext fun ax => Fin.ext (by
    match ax with
    | ⟨0, _⟩ => exact rhs_axis0 _ _
    | ⟨1, _⟩ => exact (rhs_axis1 _ _).trans hk)
  show a (dot_S1024x512_S1024x512_S1024x1024_1_1_0_0_n_n.lhsIdx (ix2 p q) _) * b (dot_S1024x512_S1024x512_S1024x1024_1_1_0_0_n_n.rhsIdx (ix2 p q) _) = _
  rw [el, er]

/-- The stored block, entry by entry, is the expanded squared distance of the loaded rows. -/
theorem pay_apply (a b : Vec Ideal S1024x512 .f32) (p q : Fin 1024) :
    k0_pay1 (F := Ideal) a b (ix2 p q) = sqDist a b p q := by
  unfold k0_pay1 sqDist
  simp only [subf_apply, addf_apply, mulf_apply, broadcast_apply]
  rw [broadcastTo_a1_ab_apply, shapeCast_a_a1_apply, broadcastTo_1b_ab_apply, shapeCast_a_1a_apply,
    rowSq, rowSq, gram]
  rfl

end Cert.KernelIdeal.Payload

end
-- ==== Proof.KernelDist.lean ====
/-
  From the kernel's blocks to its whole result.

  The grid has 4 × 16 points (j, i). Point (j, i) reads rows 1024·i … 1024·i + 1023 of `x` and rows
  1024·j … 1024·j + 1023 of `w`, and writes the 1024 × 1024 block of the result at block row `i` and block column `j`.
  What it writes is `sqDist` of the two row blocks, entry by entry; entry (p, q) of the block depends on row
  1024·i + p of `x` and row 1024·j + q of `w` only, so it is the entry (1024·i + p, 1024·j + q) of the one matrix
  `sqDistArr x w`. The 64 blocks fill the 16384 × 4096 result (entry (r, c) lies in the block of the point with
  i = r / 1024, j = c / 1024), so the result array ends holding `sqDistArr x w`.
-/
import proofs.«160219_j16655883173981_1_alg».proof.Proof.Gen.KernelIdeal.Value
import proofs.«160219_j16655883173981_1_alg».proof.Proof.KernelPayload

set_option maxRecDepth 16384

noncomputable section

open scoped BigOperators

namespace Cert.KernelIdeal.Dist

open Cert.KernelIdeal Cert.KernelIdeal.Gen Idealize.ShloMosaic Idealize.ShloMosaic.TcCoe Idealize.SL.Sem
open Idealize.ShloMosaic.ValueIdx Cert.SqDist
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The three index maps at a grid point: the block of `x` is at the result block's row, the block of `w` at the
    result block's column, both at column block 0; the result's block row is below 16 and its block column below 4. -/
theorem idx_facts : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 15 ∧ win0_2.index t (1 : Fin 2) ≤ 3 :=
  (by decide +kernel : ∀ t : Fin grid0.N, _)

/-- Every block of the result is some point's. -/
theorem idx_onto : ∀ (q0 : Fin 16) (q1 : Fin 4), ∃ t : Fin cfg0.N, win0_2.index t = ![q0.val, q1.val] :=
  (by decide +kernel : ∀ (q0 : Fin 16) (q1 : Fin 4), ∃ t : Fin grid0.N, win0_2.index t = ![q0.val, q1.val])

/-- The matrix of expanded squared distances of the rows of the two argument arrays as the region finds them. -/
abbrev dist (c : Dev nD) : S16384x4096.Idx → EReal :=
  sqDistArr (N := 16384) (O := 4096) (D := 512) (V m c main_arg0) (V m c main_arg1)

/-- What point `t` writes back is block `t` of that matrix. -/
theorem flushed_eq (c : Dev nD) (t : Fin cfg0.N) :
    (dats m 0 c).flushed 2 t = ((cfg0.win 2).blk t).view.read (Elt Ideal) (dist m c) := by
  show (cfg0.win 2).cut (grid0.coords t) ((dats m 0 c).after 2 t) = _
  rw [after0_2]
  unfold out0_2
  rw [View.canon_unit_zero origin]
  simp only [View.ld_unit_zero (S := S1024x512) origin]
  obtain ⟨e0, e1, e2, e3, e4, e5⟩ := idx_facts t
  funext j
  obtain ⟨p, q, rfl⟩ : ∃ (p q : Fin 1024), j = ix2 p q := ⟨j 0, j 1, eq_ix2 j⟩
  show k0_pay1 (F := Ideal) (iblk m c 0 t) (iblk m c 1 t) (ix2 p q)
    = sqDist (V m c main_arg0) (V m c main_arg1) ((((cfg0.win 2).blk t).view.emb (ix2 p q)) 0) ((((cfg0.win 2).blk t).view.emb (ix2 p q)) 1)
  refine (Payload.pay_apply (iblk m c 0 t) (iblk m c 1 t) p q).trans ?_
  -- row `p` of the block of `x` is the row of `x` under the result entry; likewise row `q` of the block of `w`
  have hx : ∀ k : Fin 512, iblk m c 0 t (ix2 p k)
      = V m c main_arg0 (ix2 ((((cfg0.win 2).blk t).view.emb (ix2 p q)) 0) k) := fun k => by
    show V m c main_arg0 (((cfg0.win 0).blk t).view.emb (ix2 p k)) = _
    refine congrArg _ (funext fun a => Fin.ext ?_)
    match a with
    | ⟨0, _⟩ => show win0_0.index t (0 : Fin 2) * 1024 + 1 * p.val = win0_2.index t (0 : Fin 2) * 1024 + 1 * p.val; omega
    | ⟨1, _⟩ => show win0_0.index t (1 : Fin 2) * 512 + 1 * k.val = k.val; omega
  have hw : ∀ k : Fin 512, iblk m c 1 t (ix2 q k)
      = V m c main_arg1 (ix2 ((((cfg0.win 2).blk t).view.emb (ix2 p q)) 1) k) := fun k => by
    show V m c main_arg1 (((cfg0.win 1).blk t).view.emb (ix2 q k)) = _
    refine congrArg _ (funext fun a => Fin.ext ?_)
    match a with
    | ⟨0, _⟩ => show win0_1.index t (0 : Fin 2) * 1024 + 1 * q.val = win0_2.index t (1 : Fin 2) * 1024 + 1 * q.val; omega
    | ⟨1, _⟩ => show win0_1.index t (1 : Fin 2) * 512 + 1 * k.val = k.val; omega
  unfold sqDist
  exact congrArg₂ (· - ·)
    (congrArg₂ (· + ·) (Finset.sum_congr rfl fun k _ => by rw [hx k]) (Finset.sum_congr rfl fun k _ => by rw [hw k]))
    (congrArg (_ * ·) (Finset.sum_congr rfl fun k _ => by rw [hx k, hw k]))

/-- An entry of the result is in point `t`'s block iff each coordinate is in the block's range on its axis. -/
theorem mem_blk (t : Fin cfg0.N) (i : S16384x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- Every entry (r, c) of the result lies in the block of the point with block row r / 1024 and block column c / 1024. -/
theorem cover (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The result array after the run is the matrix of expanded squared distances of the rows of the arguments. -/
theorem final (c : Dev nD) : (dats m 0 c).arrAt 2 cfg0.N
    = sqDistArr (N := 16384) (O := 4096) (D := 512) (m ((c : Thread nD τ).loc main_arg0)) (m ((c : Thread nD τ).loc main_arg1)) :=
  (dats m 0 c).arrAt_eq_of_cover 2 (dist m c) (fun t _ => flushed_eq m c t) cover

/-- The kernel's run with its result named: the matrix of expanded squared distances; the arguments unchanged. -/
theorem run : θ_run defs (onTc (τ := τ) (main (F := Ideal))) ⟨m, fun _ => 0, ρ⟩ fun r => ∀ c : Dev nD,
      r.2.mem ((c : Thread nD τ).loc main_v0)
        = sqDistArr (N := 16384) (O := 4096) (D := 512) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Dist

end
-- ==== Proof.RefDist.lean ====
/-
  The reference program's result, read entry by entry.

  The reference squares both matrices entrywise, sums each along its rows (from a zero initial value), makes the first
  vector a column and the second a row and repeats both over the 16384 × 4096 result, adds them, and subtracts twice
  the matrix of inner products of rows of `x` with rows of `w` (one contraction of the two matrices along their
  common axis). Entry (n, o) is therefore ‖x_n‖² + ‖w_o‖² − 2·⟨x_n, w_o⟩: the result is `sqDistArr x w`.
-/
import proofs.«160219_j16655883173981_1_alg».proof.Proof.Gen.ReferenceIdeal.Read
import proofs.«160219_j16655883173981_1_alg».proof.Proof.SqDist

noncomputable section

open scoped BigOperators

namespace Cert.ReferenceIdeal.Dist

open Cert.ReferenceIdeal Cert.ReferenceIdeal.Gen Cert.ReferenceIdeal.Read Idealize.ShloMosaic Idealize.ShloMosaic.ValueIdx Cert.SqDist

/-- The reference's last stage is the matrix of expanded squared distances of the rows of its two arguments. -/
theorem result_eq (x : (⟨S16384x512, .f32⟩ : BufTy).Contents (Elt Ideal)) (w : (⟨S4096x512, .f32⟩ : BufTy).Contents (Elt Ideal)) :
    val_main_v12 (F := Ideal) x w = sqDistArr (N := 16384) (O := 4096) (D := 512) x w := by
  funext i
  obtain ⟨n, o, rfl⟩ : ∃ (n : Fin 16384) (o : Fin 4096), i = ix2 n o := ⟨i 0, i 1, eq_ix2 i⟩
  rw [sqDistArr_ix2]
  -- the row of `x`, the row of `w`, and the two operands of the contraction, as the stages index them
  have e1 : ∀ k : Fin 512, idx_main_v1 (idx_main_v2 (idx_main_v7 (ix2 n o))) k = ix2 n k := fun k =>
    funext fun a => Fin.ext (by match a with | ⟨0, _⟩ => rfl | ⟨1, _⟩ => rfl)
  have e4 : ∀ k : Fin 512, idx_main_v4 (idx_main_v6 (idx_main_v8 (ix2 n o))) k = ix2 o k := fun k =>
    funext fun a => Fin.ext (by match a with | ⟨0, _⟩ => rfl | ⟨1, _⟩ => rfl)
  have el : ∀ k : Fin 512, lidx_main_v5 (ix2 n o) k = ix2 n k := fun k =>
    funext fun a => Fin.ext (by match a with | ⟨0, _⟩ => rfl | ⟨1, _⟩ => rfl)
  have er : ∀ k : Fin 512, ridx_main_v5 (ix2 n o) k = ix2 o k := fun k =>
    funext fun a => Fin.ext (by match a with | ⟨0, _⟩ => rfl | ⟨1, _⟩ => rfl)
  rw [val_main_v12_apply, val_main_v9_apply, val_main_v11_apply, val_main_v7_apply, val_main_v2_apply, val_main_v1_apply,
    val_main_v8_apply, val_main_v6_apply, val_main_v4_apply, val_main_v10_apply, val_main_cst_1_apply, val_main_v5_apply,
    val_main_cst_apply, val_main_cst_0_apply]
  simp only [val_main_v0_apply, val_main_v3_apply, e1, e4, el, er, Ideal.subf_def, Ideal.addf_def, Ideal.mulf_def,
    Ideal.ofBits_def, Ideal.ofBits_zero_f32, zero_add]
  rfl

end Cert.ReferenceIdeal.Dist

end
-- ==== Proof.lean ====
/-
  The kernel and its reference compute one matrix: entry (n, o) of the 16384 × 4096 result is
  ‖x_n‖² + ‖w_o‖² − 2·⟨x_n, w_o⟩ for row n of `x` and row o of `w` (rows of length 512), the expanded squared
  Euclidean distance of the two rows.

  The reference forms the two vectors of row sums of squares and one product of the whole matrices. The kernel does
  the same on a 4 × 16 grid of 1024 × 1024 result blocks, from a block of 1024 rows of each matrix, with the operands
  of its matrix product narrowed to a shorter float format first. On the extended reals narrowing is the identity and
  a lane sum, a host sum and both matrix products are plain finite sums, so a block's entry is the same expression in
  the same rows as the reference's entry (`SqDist`, `KernelPayload`, `RefDist`), and the blocks fill the result
  (`KernelDist`). No law beyond reading each operation at an index is needed: both sides are the same arrangement of
  sums, products, one sum and one difference, so nothing is asked of the inputs.

  The three programs' runs (termination, no fault, arguments unchanged) are the pipeline's frame for the two kernel
  programs and the host operations' run for the reference; the kernel's idealization rewrote no operation.
-/
import proofs.«160219_j16655883173981_1_alg».proof.Defs
import proofs.«160219_j16655883173981_1_alg».proof.Proof.Gen.Kernel
import proofs.«160219_j16655883173981_1_alg».proof.Proof.Gen.Kernel.Skeleton
import proofs.«160219_j16655883173981_1_alg».proof.Proof.Gen.Kernel.Launch
import proofs.«160219_j16655883173981_1_alg».proof.Proof.Gen.Kernel.Points
import proofs.«160219_j16655883173981_1_alg».proof.Proof.Gen.Kernel.Frame
import proofs.«160219_j16655883173981_1_alg».proof.Proof.Gen.KernelIdeal
import proofs.«160219_j16655883173981_1_alg».proof.Proof.Gen.KernelIdeal.Skeleton
import proofs.«160219_j16655883173981_1_alg».proof.Proof.Gen.KernelIdeal.Launch
import proofs.«160219_j16655883173981_1_alg».proof.Proof.Gen.KernelIdeal.Points
import proofs.«160219_j16655883173981_1_alg».proof.Proof.Gen.KernelIdeal.Frame
import proofs.«160219_j16655883173981_1_alg».proof.Proof.Gen.ReferenceIdeal
import proofs.«160219_j16655883173981_1_alg».proof.Proof.Gen.Pre_finite_inputs
import proofs.«160219_j16655883173981_1_alg».proof.Proof.Gen.KernelIdeal.Value
import proofs.«160219_j16655883173981_1_alg».proof.Proof.Gen.ReferenceIdeal.Run
import proofs.«160219_j16655883173981_1_alg».proof.Proof.Gen.ReferenceIdeal.Read
import proofs.«160219_j16655883173981_1_alg».proof.Proof.KernelDist
import proofs.«160219_j16655883173981_1_alg».proof.Proof.RefDist
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's host operations run one after the other and write only their own results. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the matrix of expanded squared distances of the rows of their (equal) arguments. -/
theorem algebraic : Cert.algebraic_KernelIdeal_ReferenceIdeal := by
  intro m ρ m' ρ' _ hagree
  refine ⟨_, Cert.KernelIdeal.Dist.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.Dist.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
